-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x4096 : Shape := ⟨3, ![8, 4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S16384x4096 .f32) (main_arg1 : FVec F S8x4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S16384x4096 : Shape := ⟨2, ![16384, 4096]⟩
abbrev S8x4096x4096 : Shape := ⟨3, ![8, 4096, 4096]⟩
abbrev S8x2048x4096 : Shape := ⟨3, ![8, 2048, 4096]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8x2048x4096, .f32⟩
  | .hbm, ⟨3, _⟩ => ⟨S8x2048x4096, .f32⟩
  | .hbm, ⟨4, _⟩ => ⟨S16384x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 4, 4], ![false, false, false, false]⟩

def k0_cond2 (i : grid0.Coords) : BitVec 1 :=
  let arg3 : BitVec 32 := BitVec.ofNat 32 (i 3).val
  let c3_i32 : BitVec 32 := 3#32
  let v15 : BitVec 1 := Scalar.cmpi .eq arg3 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  shapeCasts_S16384x4096_S8x2048x4096 : S16384x4096.ShapeCasts S8x2048x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  shapeCasts_S8x2048x4096_S16384x4096 : S8x2048x4096.ShapeCasts S16384x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x4096.size a
  hwx0_0 : ∀ i : grid0.Coords, EltTy.bits .f32 = 32 ∨ (Rect.block (s := S8x2048x4096) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x4096.size a
  hwx0_1 : ∀ i : grid0.Coords, EltTy.bits .f32 = 32 ∨ (Rect.block (s := S8x4096x4096) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x2048x4096.size a
  hwx0_2 : ∀ i : grid0.Coords, EltTy.bits .f32 = 32 ∨ (Rect.block (s := S8x2048x4096) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8x4096x4096 : Shape := ⟨3, ![8, 4096, 4096]⟩
abbrev S8x2048x4096 : Shape := ⟨3, ![8, 2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8x2048x4096, .f32⟩
  | .hbm, ⟨3, _⟩ => ⟨S8x2048x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S16384x4096_S8x2048x4096 : S16384x4096.ShapeCasts S8x2048x4096
  shapeCasts_S8x2048x4096_S16384x4096 : S8x2048x4096.ShapeCasts S16384x4096
  dot_S8x2048x4096_S8x4096x4096_S8x2048x4096_2_1_1_2_0_0_wf : DotDims.WF S8x2048x4096 S8x4096x4096 S8x2048x4096 [2] [1] [1] [2] [0] [0]

variable [Facts₀]

def dot_S8x2048x4096_S8x4096x4096_S8x2048x4096_2_1_1_2_0_0 : DotDims S8x2048x4096 S8x4096x4096 S8x2048x4096 where
  lhsContracting := [2]
  rhsContracting := [1]
  lhsNonContracting := [1]
  rhsNonContracting := [2]
  lhsBatch := [0]
  rhsBatch := [0]
  wf := dot_S8x2048x4096_S8x4096x4096_S8x2048x4096_2_1_1_2_0_0_wf

class Facts : Prop extends Facts₀ where

variable [Facts]
-- ==== Proof.Spec.lean ====
/-
  The grouped matrix product as ONE function of its two operand arrays, index by index, and the
  splitting of its contraction sum into four consecutive tiles of 1024 positions each.

  The left operand has shape [8, 2048, 4096] (group, row, contraction position), the right operand
  [8, 4096, 4096] (group, contraction position, column); the product at (group g, row r, column o)
  is the sum over the 4096 contraction positions k of left (g, r, k) times right (g, k, o), on the
  extended reals. Addition there is commutative and associative, so the sum may be taken tile by tile:
  the sum over the first j + 1 tiles is the sum over the first j tiles plus the sum over tile j, and
  the sum over all four tiles is the whole sum. No distributivity and no cancellation is used, so
  nothing here asks the operands to be finite.
-/
import Idealize.ShloMosaic.PureOps.Ideal
import Idealize.ShloMosaic.Lib.ValueIdx

noncomputable section

open scoped BigOperators
open Idealize.ShloMosaic Idealize.ShloMosaic.ValueIdx

namespace Cert.GroupedProduct

/-- One product of the contraction: left operand at (g, r, k) times right operand at (g, k, o). -/
def term (X : (⟨3, ![8, 2048, 4096]⟩ : Shape).Idx → EReal) (W : (⟨3, ![8, 4096, 4096]⟩ : Shape).Idx → EReal)
    (g : Fin 8) (r : Fin 2048) (o : Fin 4096) (k : Fin 4096) : EReal :=
  X (ix3 g r k) * W (ix3 g k o)

/-- The grouped matrix product: at (g, r, o) the sum of the 4096 products of row r of group g of the
    left operand with column o of group g of the right operand. -/
def gmm (X : (⟨3, ![8, 2048, 4096]⟩ : Shape).Idx → EReal) (W : (⟨3, ![8, 4096, 4096]⟩ : Shape).Idx → EReal) :
    (⟨3, ![8, 2048, 4096]⟩ : Shape).Idx → EReal :=
  fun i => ∑ k : Fin 4096, term X W (i 0) (i 1) (i 2) k

/-- A function of the contraction position, extended by zero past the last position. -/
def ext (f : Fin 4096 → EReal) (n : ℕ) : EReal := if h : n < 4096 then f ⟨n, h⟩ else 0

/-- The sum over the first `j + 1` tiles of 1024 contraction positions. -/
def part (f : Fin 4096 → EReal) (j : ℕ) : EReal := ∑ n ∈ Finset.range (1024 * (j + 1)), ext f n

/-- Position `kk` of tile `j` (the tile number read modulo 4, so that no bound is asked of it). -/
def tilePos (j : ℕ) (kk : Fin 1024) : Fin 4096 := ⟨1024 * (j % 4) + kk.val, by have := kk.isLt; omega⟩

theorem ext_tilePos (f : Fin 4096 → EReal) (j : ℕ) (hj : j < 4) (kk : Fin 1024) :
    ext f (1024 * j + kk.val) = f (tilePos j kk) := by
  have hk := kk.isLt
  have hlt : 1024 * j + kk.val < 4096 := by omega
  unfold ext
  rw [dif_pos hlt]
  refine congrArg f (Fin.ext ?_)
  show 1024 * j + kk.val = 1024 * (j % 4) + kk.val
  rw [Nat.mod_eq_of_lt hj]

/-- The first tile alone, written over a zero as the accumulation starts it. -/
theorem part_zero (f : Fin 4096 → EReal) : part f 0 = 0 + ∑ kk : Fin 1024, f (tilePos 0 kk) := by
  unfold part
  rw [show 1024 * (0 + 1) = 1024 from rfl, Finset.sum_range, zero_add]
  refine Finset.sum_congr rfl fun kk _ => ?_
  have := ext_tilePos f 0 (by omega) kk
  rwa [Nat.mul_zero, Nat.zero_add] at this

/-- One more tile: the sum over the tiles so far plus the sum over the next tile. -/
theorem part_succ (f : Fin 4096 → EReal) (j : ℕ) (hj : j + 1 < 4) :
    part f (j + 1) = part f j + ∑ kk : Fin 1024, f (tilePos (j + 1) kk) := by
  unfold part
  rw [show 1024 * (j + 1 + 1) = 1024 * (j + 1) + 1024 from by omega, Finset.sum_range_add, Finset.sum_range (fun x => ext f (1024 * (j + 1) + x))]
  exact congrArg _ (Finset.sum_congr rfl fun kk _ => ext_tilePos f (j + 1) hj kk)

/-- All four tiles: the whole contraction sum. -/
theorem part_three (f : Fin 4096 → EReal) : part f 3 = ∑ k : Fin 4096, f k := by
  unfold part
  rw [show 1024 * (3 + 1) = 4096 from rfl, Finset.sum_range]
  exact Finset.sum_congr rfl fun k _ => by unfold ext; rw [dif_pos k.isLt]

/-! ## The accumulation, step by step

The 256 steps are numbered with the contraction tile fastest: step `n` works on contraction tile `n % 4`
of column tile `n / 4 % 4` of row tile `n / 16 % 2` of group `n / 32`. -/

/-- A contraction starts: tile 0 alone over a zero. -/
theorem part_first (f : Fin 4096 → EReal) (n : ℕ) (h : n % 4 = 0) :
    part f (n % 4) = 0 + ∑ kk : Fin 1024, f (tilePos n kk) := by
  rw [h, part_zero]
  refine congrArg (0 + ·) (Finset.sum_congr rfl fun kk _ => congrArg f (Fin.ext ?_))
  show 1024 * (0 % 4) + kk.val = 1024 * (n % 4) + kk.val
  rw [h]

/-- A contraction goes on: what the step before had, plus this step's tile. -/
theorem part_next (f : Fin 4096 → EReal) (n : ℕ) (h : ¬(n + 1) % 4 = 0) :
    part f ((n + 1) % 4) = part f (n % 4) + ∑ kk : Fin 1024, f (tilePos (n + 1) kk) := by
  have e : (n + 1) % 4 = n % 4 + 1 := by omega
  rw [e, part_succ f (n % 4) (by omega)]
  refine congrArg (part f (n % 4) + ·) (Finset.sum_congr rfl fun kk _ => congrArg f (Fin.ext ?_))
  show 1024 * ((n % 4 + 1) % 4) + kk.val = 1024 * ((n + 1) % 4) + kk.val
  rw [← e, Nat.mod_mod]

/-- A contraction ends: after tile 3 the whole sum. -/
theorem part_last (f : Fin 4096 → EReal) (n : ℕ) (h : n % 4 = 3) : part f (n % 4) = ∑ k : Fin 4096, f k := by
  rw [h, part_three]

/-- The group step `n` works on, -/
def grp (n : ℕ) : Fin 8 := ⟨n / 32 % 8, by omega⟩
/-- the row of the left operand that row `p` of its row tile is, -/
def row (n : ℕ) (p : Fin 1024) : Fin 2048 := ⟨1024 * (n / 16 % 2) + p.val, by have := p.isLt; omega⟩
/-- and the column of the right operand that column `q` of its column tile is. -/
def col (n : ℕ) (q : Fin 1024) : Fin 4096 := ⟨1024 * (n / 4 % 4) + q.val, by have := q.isLt; omega⟩

/-- Within one contraction the group, the row tile and the column tile do not move. -/
theorem grp_succ (n : ℕ) (h : ¬(n + 1) % 4 = 0) : grp (n + 1) = grp n :=
  Fin.ext (by show (n + 1) / 32 % 8 = n / 32 % 8; omega)
theorem row_succ (n : ℕ) (h : ¬(n + 1) % 4 = 0) (p : Fin 1024) : row (n + 1) p = row n p :=
  Fin.ext (by show 1024 * ((n + 1) / 16 % 2) + p.val = 1024 * (n / 16 % 2) + p.val; omega)
theorem col_succ (n : ℕ) (h : ¬(n + 1) % 4 = 0) (q : Fin 1024) : col (n + 1) q = col n q :=
  Fin.ext (by show 1024 * ((n + 1) / 4 % 4) + q.val = 1024 * (n / 4 % 4) + q.val; omega)

end Cert.GroupedProduct

end
-- ==== Proof.RefSide.lean ====
/-
  The reference's batched product, read at an index, is the grouped matrix product of its operands:
  at (g, r, o) the host's dot_general (batch axis 0 of both operands, contracting axis 2 of the left
  operand against axis 1 of the right one) is the sum over k of left (g, r, k) times right (g, k, o).
-/
import proofs.«115099_j25769803776599_1_alg».proof.Proof.Gen.ReferenceIdeal.Read
import proofs.«115099_j25769803776599_1_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read Cert.GroupedProduct

/-- The reference's second stage (the reshaped first argument multiplied group by group with the second)
    is the grouped matrix product of the reshaped first argument and the second argument. -/
theorem stage_eq_gmm (x0 : (⟨S16384x4096, .f32⟩ : BufTy).Contents (Elt Ideal)) (x1 : (⟨S8x4096x4096, .f32⟩ : BufTy).Contents (Elt Ideal)) :
    val_main_v1 (F := Ideal) x0 x1 = gmm (val_main_v0 (F := Ideal) x0) x1 := by
  funext i
  rw [val_main_v1_apply]
  unfold gmm term
  refine Finset.sum_congr rfl fun k _ => ?_
  have el : lidx_main_v1 i k = ix3 (i 0) (i 1) k := funext fun a => by
    match a with
    | ⟨0, _⟩ => rfl
    | ⟨1, _⟩ => rfl
    | ⟨2, _⟩ => rfl
  have er : ridx_main_v1 i k = ix3 (i 0) k (i 2) := funext fun a => by
    match a with
    | ⟨0, _⟩ => rfl
    | ⟨1, _⟩ => rfl
    | ⟨2, _⟩ => rfl
  rw [el, er]
  rfl

/-- So the reference's result — that stage flattened back to [16384, 4096] — is the grouped matrix product of the
    regrouped first argument with the second argument, flattened. -/
theorem result_eq_gmm (x0 : (⟨S16384x4096, .f32⟩ : BufTy).Contents (Elt Ideal)) (x1 : (⟨S8x4096x4096, .f32⟩ : BufTy).Contents (Elt Ideal)) :
    val_main_v2 (F := Ideal) x0 x1
      = shapeCast S16384x4096 (gmm (val_main_v0 (F := Ideal) x0) x1) shapeCasts_S8x2048x4096_S16384x4096 := by
  unfold val_main_v2
  rw [stage_eq_gmm]

end Cert.ReferenceIdeal.RefValue

end
-- ==== Proof.Pieces.lean ====
/-
  What one run of the kernel body leaves behind, as values of the blocks it loads (at any float instance).

  The body keeps a [1024, 1024] accumulator in a scratch buffer. At the first step of a contraction
  (contraction tile 0) it stores zeros there, reads them back, and stores the zeros plus the product of
  the two loaded tiles; at every later step it stores the accumulator plus the product of the two loaded
  tiles; at the last step (contraction tile 3) it also copies the accumulator it has just stored into the
  output block. Each lemma reads the run's covering stores back as one value.
-/
import proofs.«115099_j25769803776599_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A later step that is not the last: the accumulator `xs0` plus the product of the loaded tiles. -/
theorem scratch_mid (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .f32) (x1 : Vec F S1x1024x1024 .f32) (xs0 : Vec F S1024x1024 .f32) :
    sout0_B_0 c i arg4 harg4 arg5 harg5 arg6 harg6 arg7 harg7 hc0 hc1 x0 x1 xs0 = k0_pay2 x0 x1 xs0 := by
  unfold sout0_B_0
  rw [View.read_writes_eq_canon _ _ _ (scover0_B_0 c i arg4 harg4 arg5 harg5 arg6 harg6 arg7 harg7 hc0 hc1 x0 x1 xs0)]
  unfold kernelRun0_B
  dsimp only
  sl_unfold_words
  rw [View.canon_unit_zero off2]
  simp only [View.readAt_eq_ld, harg4.read_unread, harg5.read_unread, harg7.read_unread,
    View.ld_unit_zero (S := S1x1024x1024) off3, View.ld_unit_zero (S := S1024x1024) off2]

/-- The first step: the zeros just stored (`k0_pay1`) plus the product of the loaded tiles. -/
theorem scratch_first (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x1024x1024 .f32) :
    sout0_A_0 c i arg4 harg4 arg5 harg5 arg6 harg6 arg7 harg7 hc0 hc1 x0 x1 = k0_pay2 x0 x1 (k0_pay1 (F := F)) := by
  unfold sout0_A_0
  rw [View.read_writes_eq_canon _ _ _ (scover0_A_0 c i arg4 harg4 arg5 harg5 arg6 harg6 arg7 harg7 hc0 hc1 x0 x1)]
  unfold kernelRun0_A
  dsimp only
  sl_unfold_words
  rw [View.canon_cons_unit_zero (S := S1024x1024) off2, View.readCov_unit_zero (S := S1024x1024) _ off2]
  simp only [View.readAt_eq_ld, harg4.read_unread, harg5.read_unread,
    View.ld_unit_zero (S := S1x1024x1024) off3, View.ld_unit_zero (S := S1024x1024) off2]

/-- The last step leaves in the scratch the accumulator plus the product of the loaded tiles, -/
theorem scratch_last (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    sout0_C_0 c i arg4 harg4 arg5 harg5 arg6 harg6 arg7 harg7 hc0 hc1 x0 x1 xs0 = k0_pay2 x0 x1 xs0 := by
  unfold sout0_C_0
  rw [View.read_writes_eq_canon _ _ _ (scover0_C_0 c i arg4 harg4 arg5 harg5 arg6 harg6 arg7 harg7 hc0 hc1 x0 x1 xs0)]
  unfold kernelRun0_C
  dsimp only
  sl_unfold_words
  rw [View.canon_unit_zero off2]
  simp only [View.readAt_eq_ld, harg4.read_unread, harg5.read_unread, harg7.read_unread,
    View.ld_unit_zero (S := S1x1024x1024) off3, View.ld_unit_zero (S := S1024x1024) off2]

/-- and in the output block that same value with a leading unit axis added (`k0_pay3`). -/
theorem out_last (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    out0_C_2 c i arg4 harg4 arg5 harg5 arg6 harg6 arg7 harg7 hc0 hc1 x0 x1 xs0 = k0_pay3 (k0_pay2 x0 x1 xs0) := by
  unfold out0_C_2
  rw [View.read_writes_eq_canon _ _ _ (cover0_C_2 c i arg4 harg4 arg5 harg5 arg6 harg6 arg7 harg7 hc0 hc1 x0 x1 xs0)]
  unfold kernelRun0_C
  dsimp only
  sl_unfold_words
  rw [View.canon_unit_zero off3]
  simp only [View.readAt_eq_ld, harg4.read_unread, harg5.read_unread, harg7.read_unread,
    View.readCov_unit_zero (S := S1024x1024) _ off2,
    View.ld_unit_zero (S := S1x1024x1024) off3, View.ld_unit_zero (S := S1024x1024) off2]

end Cert.KernelIdeal.Pieces

end
-- ==== Proof.Payload.lean ====
/-
  The body's arithmetic read at one entry, on the extended reals.

  The stored accumulator (`k0_pay2`) at entry (p, q) is the old accumulator at (p, q) plus the sum over
  the 1024 positions kk of the tile of the left operand at (p, kk) times the tile of the right operand at
  (kk, q): the narrowing of both tiles to bf16 is the identity on extended reals, the matrix unit's
  product into a zero accumulator is the plain sum of products, and the casts between [1, 1024, 1024]
  and [1024, 1024] only drop or add the leading unit axis. The zeros the first step stores (`k0_pay1`)
  are the extended real 0, and the output block (`k0_pay3`) at (0, p, q) is its operand at (p, q).
-/
import proofs.«115099_j25769803776599_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! The operand indices of the tile product: the left tile is read at (row of the result, contraction
    position), the right tile at (contraction position, column of the result). -/

theorem lhs_tile_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_tile_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_tile_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_tile_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix unit's product of two [1024, 1024] tiles into a zero accumulator, at (p, q): the sum over
    kk of left (p, kk) times right (kk, q). -/
theorem tile_product_apply (a b : FVec Ideal S1024x1024 .bf16) (p q : Fin 1024) :
    matmul dot_S1024x1024_S1024x1024_S1024x1024_1_0_0_1_n_n none a b (constant (F := Ideal) S1024x1024 .f32 0x00000000#32) (ix2 p q)
      = ∑ kk : Fin 1024, a (ix2 p kk) * b (ix2 kk q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-- The stored accumulator at (p, q): the old accumulator there plus the tile product there. -/
theorem acc_apply (x0 x1 : Vec Ideal S1x1024x1024 .f32) (acc : Vec Ideal S1024x1024 .f32) (p q : Fin 1024) :
    k0_pay2 (F := Ideal) x0 x1 acc (ix2 p q)
      = acc (ix2 p q) + ∑ kk : Fin 1024, x0 (ix3 (0 : Fin 1) p kk) * x1 (ix3 (0 : Fin 1) kk q) := by
  unfold k0_pay2
  rw [shapeCast_self]
  refine (addf_apply _ _ _).trans ?_
  refine congrArg (acc (ix2 p q) + ·) ?_
  refine (tile_product_apply _ _ p q).trans ?_
  refine Finset.sum_congr rfl fun kk _ => ?_
  rw [truncf_apply, truncf_apply, shapeCast_1ab_ab_apply, shapeCast_1ab_ab_apply]

/-- The zeros the first step stores are the extended real 0 at every entry. -/
theorem zeros_apply (p q : Fin 1024) : k0_pay1 (F := Ideal) (ix2 p q) = 0 := by
  unfold k0_pay1
  rw [shapeCast_self]
  exact Ideal.ofBits_zero_f32

/-- The output block at (0, p, q) is the accumulator at (p, q). -/
theorem out_apply (acc : Vec Ideal S1024x1024 .f32) (u : Fin 1) (p q : Fin 1024) :
    k0_pay3 (F := Ideal) acc (ix3 u p q) = acc (ix2 p q) := by
  unfold k0_pay3
  exact shapeCast_ab_1ab_apply _ _ u p q

end Cert.KernelIdeal.Payload

end
-- ==== Proof.Accumulate.lean ====
/-
  The idealized kernel's result array is the grouped matrix product of the arrays its region finds.

  Step `n` of the grid loads tile (group, row tile, contraction tile) of the left operand and tile
  (group, contraction tile, column tile) of the right one. By induction on the step, the accumulator after
  step `n` holds, at (p, q), the sum over the contraction tiles up to this step's of the products of row
  `row n p` of the left operand with column `col n q` of the right one, both of group `grp n`: the first step
  of a contraction starts it from zero, every later step adds its tile. After contraction tile 3 that is the
  whole sum over the 4096 positions, and that step copies it into the output block, which the pipeline writes
  back to block (group, row tile, column tile) of the result; these 64 blocks tile the result array.
-/
import proofs.«115099_j25769803776599_1_alg».proof.Proof.Spec
import proofs.«115099_j25769803776599_1_alg».proof.Proof.Pieces
import proofs.«115099_j25769803776599_1_alg».proof.Proof.Payload

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.GroupedProduct

variable (m : (ℓ : Loc nD τ sig) → Buf (Elt Ideal) ℓ)

/-- The left operand as the region finds it (the first argument regrouped), the right operand (the second
    argument), and the tiles of each that step `t` loads. -/
abbrev xarr (c : Dev nD) : Vec Ideal S8x2048x4096 .f32 := V m c main_v0
abbrev warr (c : Dev nD) : Vec Ideal S8x4096x4096 .f32 := V m c main_arg1
abbrev xblk (c : Dev nD) (t : Fin cfg0.N) : Vec Ideal S1x1024x1024 .f32 := iblk m c 0 t
abbrev wblk (c : Dev nD) (t : Fin cfg0.N) : Vec Ideal S1x1024x1024 .f32 := iblk m c 1 t

/-- Which block of its array each window is on at step `t`, decided over the grid. -/
theorem idx_facts : ∀ t : Fin cfg0.N,
    win0_0.index t (0 : Fin 3) = t.val / 32 % 8 ∧ win0_0.index t (1 : Fin 3) = t.val / 16 % 2 ∧ win0_0.index t (2 : Fin 3) = t.val % 4
    ∧ win0_1.index t (0 : Fin 3) = t.val / 32 % 8 ∧ win0_1.index t (1 : Fin 3) = t.val % 4 ∧ win0_1.index t (2 : Fin 3) = t.val / 4 % 4
    ∧ win0_2.index t (0 : Fin 3) = t.val / 32 % 8 ∧ win0_2.index t (1 : Fin 3) = t.val / 16 % 2 ∧ win0_2.index t (2 : Fin 3) = t.val / 4 % 4 :=
  (by decide +kernel : ∀ t : Fin grid0.N, _)

/-- The left tile at (p, kk) is the left operand at (group, row of p, position kk of this step's contraction tile). -/
theorem xblk_apply (c : Dev nD) (t : Fin cfg0.N) (p kk : Fin 1024) :
    xblk m c t (ix3 (0 : Fin 1) p kk) = xarr m c (ix3 (grp t.val) (row t.val p) (tilePos t.val kk)) := by
  obtain ⟨e0, e1, e2, -⟩ := idx_facts t
  show V m c main_v0 (((cfg0.win 0).blk t).view.emb (ix3 (0 : Fin 1) p kk)) = V m c main_v0 _
  refine congrArg _ (funext fun a => Fin.ext ?_)
  match a with
  | ⟨0, _⟩ => show win0_0.index t (0 : Fin 3) * 1 + 1 * (0 : Fin 1).val = t.val / 32 % 8; rw [e0]; simp
  | ⟨1, _⟩ => show win0_0.index t (1 : Fin 3) * 1024 + 1 * p.val = 1024 * (t.val / 16 % 2) + p.val; rw [e1]; omega
  | ⟨2, _⟩ => show win0_0.index t (2 : Fin 3) * 1024 + 1 * kk.val = 1024 * (t.val % 4) + kk.val; rw [e2]; omega

/-- The right tile at (kk, q) is the right operand at (group, position kk of this step's contraction tile, column of q). -/
theorem wblk_apply (c : Dev nD) (t : Fin cfg0.N) (kk q : Fin 1024) :
    wblk m c t (ix3 (0 : Fin 1) kk q) = warr m c (ix3 (grp t.val) (tilePos t.val kk) (col t.val q)) := by
  obtain ⟨-, -, -, e0, e1, e2, -⟩ := idx_facts t
  show V m c main_arg1 (((cfg0.win 1).blk t).view.emb (ix3 (0 : Fin 1) kk q)) = V m c main_arg1 _
  refine congrArg _ (funext fun a => Fin.ext ?_)
  match a with
  | ⟨0, _⟩ => show win0_1.index t (0 : Fin 3) * 1 + 1 * (0 : Fin 1).val = t.val / 32 % 8; rw [e0]; simp
  | ⟨1, _⟩ => show win0_1.index t (1 : Fin 3) * 1024 + 1 * kk.val = 1024 * (t.val % 4) + kk.val; rw [e1]; omega
  | ⟨2, _⟩ => show win0_1.index t (2 : Fin 3) * 1024 + 1 * q.val = 1024 * (t.val / 4 % 4) + q.val; rw [e2]; omega

/-- The products step `n` sums at (p, q), as a function of the contraction position. -/
abbrev prods (c : Dev nD) (n : ℕ) (p q : Fin 1024) : Fin 4096 → EReal :=
  term (xarr m c) (warr m c) (grp n) (row n p) (col n q)

/-- This step's tile product at (p, q) is the sum of those products over this step's contraction tile. -/
theorem tile_sum (c : Dev nD) (t : Fin cfg0.N) (p q : Fin 1024) :
    ∑ kk : Fin 1024, xblk m c t (ix3 (0 : Fin 1) p kk) * wblk m c t (ix3 (0 : Fin 1) kk q)
      = ∑ kk : Fin 1024, prods m c t.val p q (tilePos t.val kk) :=
  Finset.sum_congr rfl fun kk _ => by rw [xblk_apply, wblk_apply]; rfl

/-- The first step of a contraction leaves zero plus its tile product. -/
theorem scratch_first_at (c : Dev nD) (t : Fin cfg0.N) (h0 : t.val % 4 = 0) (p q : Fin 1024) :
    (outsAt0 m c t.val t.isLt).2 (ix2 p q)
      = 0 + ∑ kk : Fin 1024, xblk m c t (ix3 (0 : Fin 1) p kk) * wblk m c t (ix3 (0 : Fin 1) kk q) := by
  have h1 : ¬t.val % 4 = 3 := by omega
  rw [outsAt0_A m c t h0 h1]; dsimp only
  refine (congrFun (Pieces.scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 p q)).trans ?_
  refine (Payload.acc_apply (xblk m c t) (wblk m c t) _ p q).trans ?_
  rw [Payload.zeros_apply]

/-- Every later step leaves what the step before left plus its tile product. -/
theorem scratch_step_at (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + ∑ kk : Fin 1024, xblk m c t (ix3 (0 : Fin 1) p kk) * wblk m c t (ix3 (0 : Fin 1) kk q) := by
  by_cases h1 : t.val % 4 = 3
  · rw [outsAt0_C m c t h0 h1]; dsimp only
    refine (congrFun (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p q)).trans ?_
    exact Payload.acc_apply (xblk m c t) (wblk m c t) _ p q
  · rw [outsAt0_B m c t h0 h1]; dsimp only
    refine (congrFun (Pieces.scratch_mid (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 p q)).trans ?_
    exact Payload.acc_apply (xblk m c t) (wblk m c t) _ p q

/-- The last step of a contraction leaves in the output block what it leaves in the accumulator. -/
theorem out_at (c : Dev nD) (t : Fin cfg0.N) (h1 : t.val % 4 = 3) (u : Fin 1) (p q : Fin 1024) :
    (outsAt0 m c t.val t.isLt).1 (ix3 u p q) = (outsAt0 m c t.val t.isLt).2 (ix2 p q) := by
  have h0 : ¬t.val % 4 = 0 := by omega
  rw [outsAt0_C m c t h0 h1]; dsimp only
  refine (congrFun (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix3 u p q)).trans ?_
  refine (Payload.out_apply _ u p q).trans ?_
  exact (congrFun (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p q)).symm

/-- THE ACCUMULATOR AFTER STEP `n`: at (p, q) the sum of the products over the contraction tiles up to this step's. -/
theorem scratch_eq (c : Dev nD) : ∀ (n : ℕ) (h : n < cfg0.N) (p q : Fin 1024),
    (outsAt0 m c n h).2 (ix2 p q) = part (prods m c n p q) (n % 4)
  | 0, h, p, q => by
    rw [part_first _ 0 rfl, ← tile_sum m c ⟨0, h⟩ p q]
    exact scratch_first_at m c ⟨0, h⟩ rfl p q
  | n + 1, h, p, q => by
    by_cases h0 : (n + 1) % 4 = 0
    · rw [part_first _ (n + 1) h0, ← tile_sum m c ⟨n + 1, h⟩ p q]
      exact scratch_first_at m c ⟨n + 1, h⟩ h0 p q
    · rw [part_next _ n h0, ← tile_sum m c ⟨n + 1, h⟩ p q]
      refine (scratch_step_at m c ⟨n + 1, h⟩ h0 p q).trans ?_
      refine congrArg (· + _) ?_
      show (outsAt0 m c n _).2 (ix2 p q) = part (term (xarr m c) (warr m c) (grp (n + 1)) (row (n + 1) p) (col (n + 1) q)) (n % 4)
      rw [grp_succ n h0, row_succ n h0, col_succ n h0]
      exact scratch_eq c n _ p q

/-- The grouped matrix product of the arrays the region finds. -/
abbrev product (c : Dev nD) : Vec Ideal S8x2048x4096 .f32 := gmm (xarr m c) (warr m c)

/-- WHAT A WRITING STEP WRITES BACK is its block of the grouped matrix product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  obtain ⟨-, -, -, -, -, -, e0, e1, e2⟩ := idx_facts t
  show (cfg0.win 2).cut (grid0.coords t) ((dats m 0 c).after 2 t) = _
  rw [after0_2]
  refine funext fun (y : S1x1024x1024.Idx) => ?_
  obtain ⟨u, p, q, rfl⟩ : ∃ (u : Fin 1) (p q : Fin 1024), y = ix3 u p q := ⟨y 0, y 1, y 2, eq_ix3 y⟩
  show (outsAt0 m c t.val t.isLt).1 (ix3 u p q) = product m c (((cfg0.win 2).blk t).view.emb (ix3 u p q))
  have hemb : ((cfg0.win 2).blk t).view.emb (ix3 u p q) = (ix3 (grp t.val) (row t.val p) (col t.val q) : S8x2048x4096.Idx) := by
    refine funext fun a => Fin.ext ?_
    have hu := u.isLt
    match a with
    | ⟨0, _⟩ => show win0_2.index t (0 : Fin 3) * 1 + 1 * u.val = t.val / 32 % 8; rw [e0]; omega
    | ⟨1, _⟩ => show win0_2.index t (1 : Fin 3) * 1024 + 1 * p.val = 1024 * (t.val / 16 % 2) + p.val; rw [e1]; omega
    | ⟨2, _⟩ => show win0_2.index t (2 : Fin 3) * 1024 + 1 * q.val = 1024 * (t.val / 4 % 4) + q.val; rw [e2]; omega
  rw [hemb, out_at m c t h3 u p q, scratch_eq m c t.val t.isLt p q, part_last _ _ h3]
  rfl

/-- An index of the result array is in step `t`'s block iff each coordinate is in the block's range on its axis. -/
theorem mem_blk (t : Fin cfg0.N) (i : S8x2048x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v1).slice (win0_2.rect t)).set ↔ _
  rw [View.set_slice_whole, Rect.mem_set_unit]
  exact Iff.rfl

/-- Every entry (g, r, o) of the result is written back by the last contraction step of group g, row tile r / 1024,
    column tile o / 1024. -/
theorem cover (i : S8x2048x4096.Idx) :
    ∃ t : Fin cfg0.N, (cfg0.win 2).flush t = true ∧ i ∈ ((cfg0.win 2).blk t).view.set := by
  have hN : cfg0.N = 256 := N_0
  have b0 : (i 0).val < 8 := (i 0).isLt
  have b1 : (i 1).val < 2048 := (i 1).isLt
  have b2 : (i 2).val < 4096 := (i 2).isLt
  let t : Fin cfg0.N := ⟨32 * (i 0).val + 16 * ((i 1).val / 1024) + 4 * ((i 2).val / 1024) + 3, by rw [hN]; omega⟩
  have ht : t.val = 32 * (i 0).val + 16 * ((i 1).val / 1024) + 4 * ((i 2).val / 1024) + 3 := rfl
  obtain ⟨-, -, -, -, -, -, e0, e1, e2⟩ := idx_facts t
  refine ⟨t, (flush0_2 t).mpr (by rw [ht]; omega), ?_⟩
  rw [mem_blk]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 1024 ≤ (i 1).val ∧ (i 1).val < win0_2.index t (1 : Fin 3) * 1024 + 1024; rw [e1, ht]; omega
  | ⟨2, _⟩ => show win0_2.index t (2 : Fin 3) * 1024 ≤ (i 2).val ∧ (i 2).val < win0_2.index t (2 : Fin 3) * 1024 + 1024; rw [e2, ht]; omega

/-- THE RESULT ARRAY after the region: the grouped matrix product of the arrays the region finds. -/
theorem final (c : Dev nD) : (dats m 0 c).arrAt 2 cfg0.N = product m c :=
  (dats m 0 c).arrAt_eq_of_cover 2 (product m c) (flushed_eq m c) cover

end Cert.KernelIdeal.Acc

end
-- ==== Proof.Result.lean ====
/-
  The idealized kernel's run, read: the result is the grouped matrix product of the first argument regrouped
  as [8, 2048, 4096] with the second argument, flattened back to [16384, 4096]; the arguments end unchanged.

  Before the region the program regroups the first argument's 16384 rows into 8 groups of 2048 (a reshape);
  the region leaves the grouped product in its result array; after the region the program flattens that array
  (a reshape again).
-/
import proofs.«115099_j25769803776599_1_alg».proof.Proof.Accumulate
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.GroupedProduct

variable (m : (ℓ : Loc nD τ sig) → Buf (Elt Ideal) ℓ) (ρ : Dev nD → PrngReg)

/-- The left operand the region finds is the first argument regrouped. -/
theorem xarr_eq (c : Dev nD) :
    xarr m c = shapeCast S8x2048x4096 (m ((c : Thread nD τ).loc main_arg0)) shapeCasts_S16384x4096_S8x2048x4096 := by
  show StableHlo.after hostOps0 (fun b => m (c, b)) (Proc.devRef .tc main_v0) = _
  after_results
  rfl

/-- The right operand the region finds is the second argument. -/
theorem warr_eq (c : Dev nD) : warr m c = m ((c : Thread nD τ).loc main_arg1) := V_main_arg1 m c

/-- The program's result as a function of its two arguments. -/
abbrev result (c : Dev nD) : Vec Ideal S16384x4096 .f32 :=
  shapeCast S16384x4096
    (gmm (shapeCast S8x2048x4096 (m ((c : Thread nD τ).loc main_arg0)) shapeCasts_S16384x4096_S8x2048x4096)
      (m ((c : Thread nD τ).loc main_arg1)))
    shapeCasts_S8x2048x4096_S16384x4096

/-- What the lines after the region leave in the program's result. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  show shapeCast S16384x4096 (Pipeline.withArrays spec0 c (V0 m c) (fun w => (dats m 0 c).arrAt w cfg0.N) (Proc.devRef .tc (Pipeline.arrRef spec0 2))) shapeCasts_S8x2048x4096_S16384x4096 = result m c
  rw [Pipeline.withArrays_arr spec0 launch0.win.arr_inj c _ _ 2, final]
  show shapeCast S16384x4096 (gmm (xarr m c) (warr m c)) shapeCasts_S8x2048x4096_S16384x4096 = result m c
  rw [xarr_eq, warr_eq]

/-- THE RUN, READ: from any memory with zero counters every weakly fair execution of the idealized kernel's program
    terminates with its result at the grouped matrix product of its arguments, flattened, and the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Acc

end
-- ==== Proof.lean ====
/- The proof of `Cert.Claim`: the three frames, the (empty) idealization ledger, and the equality of the idealized
   kernel's and the idealized reference's results on the extended reals.

   Both programs regroup the first argument x : [16384, 4096] as [8, 2048, 4096], multiply group g of it with
   group g of the second argument w : [8, 4096, 4096], and flatten the [8, 2048, 4096] product back to
   [16384, 4096]. The reference takes each product entry as one sum over the 4096 contraction positions. The
   kernel walks a grid of 8 groups x 2 row tiles x 4 column tiles x 4 contraction tiles, the contraction tile
   fastest: it keeps a [1024, 1024] accumulator, zeroes it at contraction tile 0, adds the product of the two
   loaded [1024, 1024] tiles at every step (narrowed to bf16 first, which changes nothing on extended reals), and
   writes the accumulator out after contraction tile 3. So each entry of the kernel's result is the same 4096
   products summed tile by tile, and the two sums are equal because addition of extended reals is commutative and
   associative; no operand needs to be finite for that, and the precondition is not used.
   The frames of the two kernel programs are the generated ones; the reference's frame is its generated run with
   the result dropped. -/
import proofs.«115099_j25769803776599_1_alg».proof.Defs
import proofs.«115099_j25769803776599_1_alg».proof.Proof.Gen.Kernel
import proofs.«115099_j25769803776599_1_alg».proof.Proof.Gen.Kernel.Skeleton
import proofs.«115099_j25769803776599_1_alg».proof.Proof.Gen.Kernel.Launch
import proofs.«115099_j25769803776599_1_alg».proof.Proof.Gen.Kernel.Points
import proofs.«115099_j25769803776599_1_alg».proof.Proof.Gen.Kernel.Frame
import proofs.«115099_j25769803776599_1_alg».proof.Proof.Gen.KernelIdeal
import proofs.«115099_j25769803776599_1_alg».proof.Proof.Gen.KernelIdeal.Skeleton
import proofs.«115099_j25769803776599_1_alg».proof.Proof.Gen.KernelIdeal.Launch
import proofs.«115099_j25769803776599_1_alg».proof.Proof.Gen.KernelIdeal.Points
import proofs.«115099_j25769803776599_1_alg».proof.Proof.Gen.KernelIdeal.Frame
import proofs.«115099_j25769803776599_1_alg».proof.Proof.Gen.ReferenceIdeal
import proofs.«115099_j25769803776599_1_alg».proof.Proof.Gen.ReferenceIdeal.Run
import proofs.«115099_j25769803776599_1_alg».proof.Proof.Gen.ReferenceIdeal.Read
import proofs.«115099_j25769803776599_1_alg».proof.Proof.Gen.Pre_finite_inputs
import proofs.«115099_j25769803776599_1_alg».proof.Proof.RefSide
import proofs.«115099_j25769803776599_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is three host operations: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end at the grouped matrix product of the regrouped first argument with the
    second argument, flattened: the kernel by its accumulation over the grid, the reference by its batched product
    read at an index. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.RefValue.result_eq_gmm _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
